-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S1200000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S1x1200000 : Shape := ⟨2, ![1, 1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 109
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S100000, .i32⟩
  | .hbm, ⟨14, _⟩ => ⟨S1300000, .i32⟩
  | .hbm, ⟨15, _⟩ => ⟨S1300000, .i32⟩
  | .hbm, ⟨16, _⟩ => ⟨S_, .f32⟩
  | .hbm, ⟨17, _⟩ => ⟨S100000, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000, .f32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000, .f32⟩
  | .hbm, ⟨53, _⟩ => ⟨S1300000, .f32⟩
  | .hbm, ⟨54, _⟩ => ⟨S100000x64, .f32⟩
  | .hbm, ⟨55, _⟩ => ⟨S_, .i32⟩
  | .hbm, ⟨56, _⟩ => ⟨S1300000, .i32⟩
  | .hbm, ⟨57, _⟩ => ⟨S1300000, .i1⟩
  | .hbm, ⟨58, _⟩ => ⟨S_, .i32⟩
  | .hbm, ⟨59, _⟩ => ⟨S1300000, .i32⟩
  | .hbm, ⟨60, _⟩ => ⟨S1300000, .i32⟩
  | .hbm, ⟨61, _⟩ => ⟨S1300000, .i32⟩
  | .hbm, ⟨62, _⟩ => ⟨S1300000x1, .i32⟩
  | .hbm, ⟨63, _⟩ => ⟨S1300000x64, .f32⟩
  | .hbm, ⟨64, _⟩ => ⟨S1300000x1, .f32⟩
  | .hbm, ⟨65, _⟩ => ⟨S1300000x64, .f32⟩
  | .hbm, ⟨66, _⟩ => ⟨S1300000x64, .f32⟩
  | .hbm, ⟨67, _⟩ => ⟨S_, .f32⟩
  | .hbm, ⟨68, _⟩ => ⟨S100000x64, .f32⟩
  | .hbm, ⟨69, _⟩ => ⟨S1300000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1300000, .i32⟩
  | .hbm, ⟨75, _⟩ => ⟨S1300000, .i1⟩
  | .hbm, ⟨76, _⟩ => ⟨S_, .i32⟩
  | .hbm, ⟨77, _⟩ => ⟨S1300000, .i32⟩
  | .hbm, ⟨78, _⟩ => ⟨S1300000, .i32⟩
  | .hbm, ⟨79, _⟩ => ⟨S1300000, .i32⟩
  | .hbm, ⟨80, _⟩ => ⟨S1300000x1, .i32⟩
  | .hbm, ⟨81, _⟩ => ⟨S1300000x64, .f32⟩
  | .hbm, ⟨82, _⟩ => ⟨S1300000x1, .f32⟩
  | .hbm, ⟨83, _⟩ => ⟨S1300000x64, .f32⟩
  | .hbm, ⟨84, _⟩ => ⟨S1300000x64, .f32⟩
  | .hbm, ⟨85, _⟩ => ⟨S_, .f32⟩
  | .hbm, ⟨86, _⟩ => ⟨S100000x64, .f32⟩
  | .hbm, ⟨87, _⟩ => ⟨S1300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S_, .i32⟩
  | .hbm, ⟨92, _⟩ => ⟨S1300000, .i32⟩
  | .hbm, ⟨93, _⟩ => ⟨S1300000, .i1⟩
  | .hbm, ⟨94, _⟩ => ⟨S_, .i32⟩
  | .hbm, ⟨95, _⟩ => ⟨S1300000, .i32⟩
  | .hbm, ⟨96, _⟩ => ⟨S1300000, .i32⟩
  | .hbm, ⟨97, _⟩ => ⟨S1300000, .i32⟩
  | .hbm, ⟨98, _⟩ => ⟨S1300000x1, .i32⟩
  | .hbm, ⟨99, _⟩ => ⟨S1300000x64, .f32⟩
  | .hbm, ⟨100, _⟩ => ⟨S1300000x1, .f32⟩
  | .hbm, ⟨101, _⟩ => ⟨S1300000x64, .f32⟩
  | .hbm, ⟨102, _⟩ => ⟨S1300000x64, .f32⟩
  | .hbm, ⟨103, _⟩ => ⟨S_, .f32⟩
  | .hbm, ⟨104, _⟩ => ⟨S100000x64, .f32⟩
  | .hbm, ⟨105, _⟩ => ⟨S1300000x1, .i32⟩
  | .hbm, ⟨106, _⟩ => ⟨S100000x64, .f32⟩
  | .hbm, ⟨107, _⟩ => ⟨S1x64, .f32⟩
  | .hbm, ⟨108, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S1x1200000 : Shape := ⟨2, ![1, 1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S100000, .i32⟩
  | .hbm, ⟨14, _⟩ => ⟨S1300000, .i32⟩
  | .hbm, ⟨15, _⟩ => ⟨S1300000, .i32⟩
  | .hbm, ⟨16, _⟩ => ⟨S_, .f32⟩
  | .hbm, ⟨17, _⟩ => ⟨S100000, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000, .f32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000, .f32⟩
  | .hbm, ⟨53, _⟩ => ⟨S1300000, .f32⟩
  | .hbm, ⟨54, _⟩ => ⟨S100000x64, .f32⟩
  | .hbm, ⟨55, _⟩ => ⟨S_, .i32⟩
  | .hbm, ⟨56, _⟩ => ⟨S1300000, .i32⟩
  | .hbm, ⟨57, _⟩ => ⟨S1300000, .i1⟩
  | .hbm, ⟨58, _⟩ => ⟨S_, .i32⟩
  | .hbm, ⟨59, _⟩ => ⟨S1300000, .i32⟩
  | .hbm, ⟨60, _⟩ => ⟨S1300000, .i32⟩
  | .hbm, ⟨61, _⟩ => ⟨S1300000, .i32⟩
  | .hbm, ⟨62, _⟩ => ⟨S1300000x1, .i32⟩
  | .hbm, ⟨63, _⟩ => ⟨S1300000x64, .f32⟩
  | .hbm, ⟨64, _⟩ => ⟨S1300000x1, .f32⟩
  | .hbm, ⟨65, _⟩ => ⟨S1300000x64, .f32⟩
  | .hbm, ⟨66, _⟩ => ⟨S1300000x64, .f32⟩
  | .hbm, ⟨67, _⟩ => ⟨S_, .f32⟩
  | .hbm, ⟨68, _⟩ => ⟨S100000x64, .f32⟩
  | .hbm, ⟨69, _⟩ => ⟨S1300000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1300000, .i32⟩
  | .hbm, ⟨80, _⟩ => ⟨S1300000, .i1⟩
  | .hbm, ⟨81, _⟩ => ⟨S_, .i32⟩
  | .hbm, ⟨82, _⟩ => ⟨S1300000, .i32⟩
  | .hbm, ⟨83, _⟩ => ⟨S1300000, .i32⟩
  | .hbm, ⟨84, _⟩ => ⟨S1300000, .i32⟩
  | .hbm, ⟨85, _⟩ => ⟨S1300000x1, .i32⟩
  | .hbm, ⟨86, _⟩ => ⟨S1300000x64, .f32⟩
  | .hbm, ⟨87, _⟩ => ⟨S1300000x1, .f32⟩
  | .hbm, ⟨88, _⟩ => ⟨S1300000x64, .f32⟩
  | .hbm, ⟨89, _⟩ => ⟨S1300000x64, .f32⟩
  | .hbm, ⟨90, _⟩ => ⟨S_, .f32⟩
  | .hbm, ⟨91, _⟩ => ⟨S100000x64, .f32⟩
  | .hbm, ⟨92, _⟩ => ⟨S1300000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S_, .i32⟩
  | .hbm, ⟨102, _⟩ => ⟨S1300000, .i32⟩
  | .hbm, ⟨103, _⟩ => ⟨S1300000, .i1⟩
  | .hbm, ⟨104, _⟩ => ⟨S_, .i32⟩
  | .hbm, ⟨105, _⟩ => ⟨S1300000, .i32⟩
  | .hbm, ⟨106, _⟩ => ⟨S1300000, .i32⟩
  | .hbm, ⟨107, _⟩ => ⟨S1300000, .i32⟩
  | .hbm, ⟨108, _⟩ => ⟨S1300000x1, .i32⟩
  | .hbm, ⟨109, _⟩ => ⟨S1300000x64, .f32⟩
  | .hbm, ⟨110, _⟩ => ⟨S1300000x1, .f32⟩
  | .hbm, ⟨111, _⟩ => ⟨S1300000x64, .f32⟩
  | .hbm, ⟨112, _⟩ => ⟨S1300000x64, .f32⟩
  | .hbm, ⟨113, _⟩ => ⟨S_, .f32⟩
  | .hbm, ⟨114, _⟩ => ⟨S100000x64, .f32⟩
  | .hbm, ⟨115, _⟩ => ⟨S1300000x1, .i32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call3_cst : Ref sig .tc := ⟨.hbm, 120, rfl⟩
abbrev main_call3_v0 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Spec.lean ====
/- The two array functions a graph-convolution layer is made of besides its neighbourhood sum, at the exact values.

   `lin x w` is the matrix product of the node features `x` (100000 rows of 64) with a 64 × 64 weight: entry (r, c)
   is the sum over k of x (r, k) · w (k, c). `act a b` adds the bias row `b` (kept as a 1 × 64 array) to every row of
   `a` and takes the maximum with 0. Both are stated entry by entry on the extended reals, so a blocked product on
   bf16 inputs and a whole product on f32 inputs are the same function here: a change of format is the identity. -/
import Idealize.ShloMosaic.PureOps.Ideal
import Idealize.ShloMosaic.Lib.ValueIdx

noncomputable section

namespace Cert.Gcn

open Idealize.ShloMosaic Idealize.ShloMosaic.ValueIdx
open scoped BigOperators

/-- Node features: 100000 rows of 64. -/
abbrev Nodes : Shape := ⟨2, ![100000, 64]⟩
/-- A block of 10000 rows. -/
abbrev Blk : Shape := ⟨2, ![10000, 64]⟩
/-- A weight matrix. -/
abbrev Wts : Shape := ⟨2, ![64, 64]⟩
/-- A bias kept as one row. -/
abbrev Row : Shape := ⟨2, ![1, 64]⟩

/-- The product of the features with a weight: entry (r, c) is the sum over k of x (r, k) · w (k, c). -/
def lin (x : Nodes.Idx → EReal) (w : Wts.Idx → EReal) : Nodes.Idx → EReal :=
  fun i => ∑ k : Fin 64, x (ix2 (n0 := 100000) ⟨(i 0).val, (i 0).isLt⟩ k) * w (ix2 k (n1 := 64) ⟨(i 1).val, (i 1).isLt⟩)

theorem lin_ix2 (x : Nodes.Idx → EReal) (w : Wts.Idx → EReal) (r : Fin 100000) (c : Fin 64) :
    lin x w (ix2 r c) = ∑ k : Fin 64, x (ix2 r k) * w (ix2 k c) := rfl

/-- The bias row added to every row, then the maximum with 0. -/
def act (a : Nodes.Idx → EReal) (b : Row.Idx → EReal) : Nodes.Idx → EReal :=
  fun i => max (a i + b (ix2 (n0 := 1) 0 (n1 := 64) ⟨(i 1).val, (i 1).isLt⟩)) 0

theorem act_ix2 (a : Nodes.Idx → EReal) (b : Row.Idx → EReal) (r : Fin 100000) (c : Fin 64) :
    act a b (ix2 r c) = max (a (ix2 r c) + b (ix2 0 c)) 0 := rfl

end Cert.Gcn

end
-- ==== Proof.Neighbours.lean ====
/- The neighbourhood sum of a graph-convolution layer, as the host computes it.

   Given the source and destination node of each of the 1300000 edges (the graph's edges followed by one self-loop per
   node), the edge's normalised weight, and the node features h: a source index that is negative is first wrapped by
   adding the number of nodes, the source node's feature row is gathered, scaled by the edge's weight, and the scaled
   rows are summed into their destination nodes' rows, starting from zero. The kernel's program and the reference
   apply this same chain of operations to their layer's features; stating it once as a function lets both sides be
   compared by comparing what goes in. -/
import proofs.«145862_j54932631715890_1_alg».proof.Proof.Gen.KernelIdeal

noncomputable section

namespace Cert.KernelIdeal.Neighbours

open Cert.KernelIdeal Cert.KernelIdeal.Gen Idealize.ShloMosaic

variable {F : FTy → Type} [FloatOps F]

/-- The scaled neighbourhood sum: gather the source rows of `h`, scale each by its edge's weight, sum into the
    destination rows. -/
def agg (src dst : (⟨S1300000, .i32⟩ : BufTy).Contents (Elt F)) (nrm : (⟨S1300000, .f32⟩ : BufTy).Contents (Elt F))
    (h : (⟨S100000x64, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 dst)
    (mulf
      (Host.gather gather_S100000x64_S1300000x1_S1300000x64_1_0_n_n_0_1_164 h
        (broadcastInDim S1300000x1 ![0] bcast_S1300000_S1300000x1_0
          (select (cmpi .slt src (broadcastInDim S1300000 ![] bcast_S_S1300000 (constantI S_ 32 0#32)))
            (addi src (broadcastInDim S1300000 ![] bcast_S_S1300000 (constantI S_ 32 100000#32))) src)))
      (broadcastInDim S1300000x64 ![0, 1] bcast_S1300000x1_S1300000x64_0_1
        (broadcastInDim S1300000x1 ![0] bcast_S1300000_S1300000x1_0 nrm)))

end Cert.KernelIdeal.Neighbours

end
-- ==== Proof.Kept.lean ====
/- Which buffers of the kernel's program keep their contents from one boundary of the run to the next.

   The program is three stretches of host operations, then four kernel regions with a stretch of host operations before
   each later one. The argument arrays are written by nothing; the edge sources, the edge destinations and the edges'
   normalised weights are computed once, in the first stretches, and read again before every later region. A host
   stretch changes only the buffers its operations write, and a region changes only its own arrays, so each of these
   buffers holds at a later boundary what it held at the first region's entry. -/
import proofs.«145862_j54932631715890_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer none of a stretch's operations writes holds after the stretch what it held before. -/
macro "host_keep" : tactic => `(tactic| exact StableHlo.after_of_forall_not_mem _ _ (List.forall_iff_forall_mem.mp (by
  simp only [hostOps0, hostOps0_1, hostOps0_2, hostOps1, hostOps2, hostOps3, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))))

/-- An argument array holds at the first region's entry what it held at launch. -/
theorem entry1 (c : Dev nD) (b : Ref sig .tc)
    (hb : b ∈ ([main_arg0, main_arg3, main_arg4, main_arg5, main_arg6, main_arg7, main_arg8] : List (Ref sig .tc))) :
    W3 m ρ c (Proc.devRef .tc b) = W0 m ρ c (Proc.devRef .tc b) := by
  simp only [List.mem_cons, List.mem_singleton, List.not_mem_nil, or_false] at hb
  rcases hb with rfl | rfl | rfl | rfl | rfl | rfl | rfl <;>
  exact (show W3 m ρ c _ = W2 m ρ c _ by host_keep).trans
    ((show W2 m ρ c _ = W1 m ρ c _ by host_keep).trans (show W1 m ρ c _ = W0 m ρ c _ by host_keep))

/-- The first region writes none of these. -/
theorem exit1 (c : Dev nD) (b : Ref sig .tc)
    (hb : b ∈ ([main_v5, main_v6, main_v33, main_arg4, main_arg5, main_arg6, main_arg7, main_arg8] : List (Ref sig .tc))) :
    W4 m ρ c (Proc.devRef .tc b) = W3 m ρ c (Proc.devRef .tc b) := by
  simp only [List.mem_cons, List.mem_singleton, List.not_mem_nil, or_false] at hb
  rcases hb with rfl | rfl | rfl | rfl | rfl | rfl | rfl | rfl <;> exact W4_of_ne m ρ c _ (by decide)

/-- Nor does the stretch before the second region. -/
theorem entry2 (c : Dev nD) (b : Ref sig .tc)
    (hb : b ∈ ([main_v5, main_v6, main_v33, main_arg4, main_arg5, main_arg6, main_arg7, main_arg8] : List (Ref sig .tc))) :
    W5 m ρ c (Proc.devRef .tc b) = W4 m ρ c (Proc.devRef .tc b) := by
  simp only [List.mem_cons, List.mem_singleton, List.not_mem_nil, or_false] at hb
  rcases hb with rfl | rfl | rfl | rfl | rfl | rfl | rfl | rfl <;> host_keep

/-- Nor the second region. -/
theorem exit2 (c : Dev nD) (b : Ref sig .tc)
    (hb : b ∈ ([main_v5, main_v6, main_v33, main_arg6, main_arg7, main_arg8] : List (Ref sig .tc))) :
    W6 m ρ c (Proc.devRef .tc b) = W5 m ρ c (Proc.devRef .tc b) := by
  simp only [List.mem_cons, List.mem_singleton, List.not_mem_nil, or_false] at hb
  rcases hb with rfl | rfl | rfl | rfl | rfl | rfl <;> exact W6_of_ne m ρ c _ (by decide)

/-- Nor the stretch before the third region. -/
theorem entry3 (c : Dev nD) (b : Ref sig .tc)
    (hb : b ∈ ([main_v5, main_v6, main_v33, main_arg6, main_arg7, main_arg8] : List (Ref sig .tc))) :
    W7 m ρ c (Proc.devRef .tc b) = W6 m ρ c (Proc.devRef .tc b) := by
  simp only [List.mem_cons, List.mem_singleton, List.not_mem_nil, or_false] at hb
  rcases hb with rfl | rfl | rfl | rfl | rfl | rfl <;> host_keep

/-- Nor the third region. -/
theorem exit3 (c : Dev nD) (b : Ref sig .tc)
    (hb : b ∈ ([main_v5, main_v6, main_v33, main_arg8] : List (Ref sig .tc))) :
    W8 m ρ c (Proc.devRef .tc b) = W7 m ρ c (Proc.devRef .tc b) := by
  simp only [List.mem_cons, List.mem_singleton, List.not_mem_nil, or_false] at hb
  rcases hb with rfl | rfl | rfl | rfl <;> exact W8_of_ne m ρ c _ (by decide)

/-- Nor the stretch before the last region. -/
theorem entry4 (c : Dev nD) (b : Ref sig .tc)
    (hb : b ∈ ([main_v5, main_v6, main_v33, main_arg8] : List (Ref sig .tc))) :
    W9 m ρ c (Proc.devRef .tc b) = W8 m ρ c (Proc.devRef .tc b) := by
  simp only [List.mem_cons, List.mem_singleton, List.not_mem_nil, or_false] at hb
  rcases hb with rfl | rfl | rfl | rfl <;> host_keep

end Cert.KernelIdeal.Kept

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Layer1.lean ====
/- The first layer's product: what the blocked kernel leaves in its output array.

   The kernel walks the 100000 rows in ten blocks of 10000; at block t it loads rows 10000·t … 10000·t + 9999 of the
   features and the whole 64 × 64 weight, multiplies them (the bf16 casts are the identity on exact values, and the
   product starts from a zero accumulator), and writes the 10000 × 64 result back as block t of the output. Entry
   (r, c) of block t is the sum over k of x (10000·t + r, k) · w (k, c): block t of the whole product. The ten blocks
   cover the output, so after the region the output array is the whole product of the arrays the region found. -/
import proofs.«145862_j54932631715890_1_alg».proof.Proof.Gen.KernelIdeal.Frame
import proofs.«145862_j54932631715890_1_alg».proof.Proof.Spec
import proofs.«145862_j54932631715890_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)
open scoped BigOperators

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's product at an entry of the block: the sum over k of the row's entry k times the weight's (k, c). -/
theorem pay_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Cert.DotPlain.matmul_zero_rows_cols dot_S10000x64_S64x64_S10000x64_1_0_0_1_n_n rfl rfl rfl rfl rfl rfl none _ _ p q

/-- Where the three windows sit at grid point t: the feature and output windows at block row t, the weight window
    at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The feature block and the weight block at grid point t, at their literal types. -/
abbrev xblk (c : Dev nD) (t : Fin cfg0.N) : Vec Ideal S10000x64 .f32 := iblk0 V c 0 t
abbrev wblk (c : Dev nD) (t : Fin cfg0.N) : Vec Ideal S64x64 .f32 := iblk0 V c 1 t

/-- The feature block at t is rows 10000·t onwards of the feature array. -/
theorem xblk_apply (c : Dev nD) (t : Fin cfg0.N) (p : Fin 10000) (k : Fin 64) (h : t.val * 10000 + p.val < 100000) :
    xblk V c t (ix2 p k) = V c main_arg0 (ix2 (n0 := 100000) ⟨t.val * 10000 + p.val, h⟩ k) := by
  obtain ⟨e0, e1, e2, e3, e4, e5, e6⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The weight block at every t is the weight array. -/
theorem wblk_apply (c : Dev nD) (t : Fin cfg0.N) (k : Fin 64) (q : Fin 64) :
    wblk V c t (ix2 k q) = V c main_arg3 (ix2 k q) := by
  obtain ⟨e0, e1, e2, e3, e4, e5, e6⟩ := idx_facts t
  show V c main_arg3 (((cfg0.win 1).blk t).view.emb (ix2 k q)) = _
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- What grid point t writes back is block t of the whole product. -/
theorem flushed_eq (c : Dev nD) (t : Fin cfg0.N) :
    (dat0 V c).flushed 2 t = ((cfg0.win 2).blk t).view.read (Elt Ideal) (lin (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5, e6⟩ := idx_facts t
  funext j
  obtain ⟨p, q, rfl⟩ : ∃ (p : Fin 10000) (q : Fin 64), j = ix2 p q := ⟨j 0, j 1, eq_ix2 j⟩
  have hp : t.val * 10000 + p.val < 100000 := by have := p.isLt; omega
  show k0_pay1 (xblk V c t) (wblk V c t) (ix2 p q) = lin (V c main_arg0) (V c main_arg3) (((cfg0.win 2).blk t).view.emb (ix2 p q))
  have hemb : ((cfg0.win 2).blk t).view.emb (ix2 p q) = ix2 (n0 := 100000) ⟨t.val * 10000 + p.val, hp⟩ q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb, lin_ix2, pay_apply]
  exact Finset.sum_congr rfl fun k _ => by rw [xblk_apply V c t p k hp, wblk_apply V c t k q]

/-- An index of the output array is in block t iff its row is among rows 10000·t … 10000·t + 9999. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Every row is in one of the ten blocks: row r in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5, e6⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array is the product of the feature and weight arrays the region found. -/
theorem final (c : Dev nD) : (dat0 V c).arrAt 2 cfg0.N = lin (V c main_arg0) (V c main_arg3) :=
  (dat0 V c).arrAt_eq_of_cover 2 (lin (V c main_arg0) (V c main_arg3)) (fun t _ => flushed_eq V c t) cover

end Cert.KernelIdeal.Layer1

end
-- ==== Proof.Layer2.lean ====
/- The second layer's product: what the fused bias, rectifier and product kernel leaves in its output array.

   At block t the kernel loads rows 10000·t … 10000·t + 9999 of the aggregated features, the bias row (1 × 64) and the
   whole 64 × 64 weight; it adds the bias row to every loaded row, takes the maximum with 0, and multiplies by the
   weight from a zero accumulator. Entry (r, c) of block t is the sum over k of
   max (a (10000·t + r, k) + b (0, k), 0) · w (k, c): block t of the product of the rectified, biased features with
   the weight. The ten blocks cover the output array. -/
import proofs.«145862_j54932631715890_1_alg».proof.Proof.Gen.KernelIdeal.Frame
import proofs.«145862_j54932631715890_1_alg».proof.Proof.Spec
import proofs.«145862_j54932631715890_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)
open scoped BigOperators

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the sum over k of the rectified, biased row entry k times the
    weight's (k, c). -/
theorem pay_apply (x0 : Vec Ideal S10000x64 .f32) (x1 : Vec Ideal S1x64 .f32) (x2 : Vec Ideal S64x64 .f32) (p : Fin 10000) (q : Fin 64) :
    k1_pay1 x0 x1 x2 (ix2 p q) = ∑ k : Fin 64, max (x0 (ix2 p k) + x1 (ix2 0 k)) 0 * x2 (ix2 k q) := by
  unfold k1_pay1
  refine (Cert.DotPlain.matmul_zero_rows_cols dot_S10000x64_S64x64_S10000x64_1_0_0_1_n_n rfl rfl rfl rfl rfl rfl none _ _ p q).trans ?_
  refine Finset.sum_congr rfl fun k _ => ?_
  show max (shapeCast S10000x64 x0 shapeCasts_S10000x64_S10000x64 (ix2 p k)
      + broadcastTo S10000x64 (shapeCast S1x64 x1 shapeCasts_S1x64_S1x64) broadcasts_S1x64_S10000x64 (ix2 p k)) (Ideal.ofBits .f32 0x00000000#32) * x2 (ix2 k q) = _
  rw [shapeCast_self, shapeCast_self, Ideal.ofBits_zero_f32,
    broadcastTo_apply x1 broadcasts_S1x64_S10000x64 (ix2 p k) (ix2 0 k) (fun a => by
      match a with
      | ⟨0, _⟩ => rfl
      | ⟨1, _⟩ => rfl)]

/-- Where the four windows sit at grid point t: the feature and output windows at block row t, the bias and weight
    windows at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The feature block, the bias block and the weight block at grid point t, at their literal types. -/
abbrev xblk (c : Dev nD) (t : Fin cfg1.N) : Vec Ideal S10000x64 .f32 := iblk1 V c 0 t
abbrev bblk (c : Dev nD) (t : Fin cfg1.N) : Vec Ideal S1x64 .f32 := iblk1 V c 1 t
abbrev wblk (c : Dev nD) (t : Fin cfg1.N) : Vec Ideal S64x64 .f32 := iblk1 V c 2 t

/-- The feature block at t is rows 10000·t onwards of the feature array. -/
theorem xblk_apply (c : Dev nD) (t : Fin cfg1.N) (p : Fin 10000) (k : Fin 64) (h : t.val * 10000 + p.val < 100000) :
    xblk V c t (ix2 p k) = V c main_v47 (ix2 (n0 := 100000) ⟨t.val * 10000 + p.val, h⟩ k) := by
  obtain ⟨e0, e1, e2, e3, e4, e5, e6, e7, e8⟩ := idx_facts t
  show V c main_v47 (((cfg1.win 0).blk t).view.emb (ix2 p k)) = _
  refine congrArg (V c main_v47) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- The bias block at every t is the bias row. -/
theorem bblk_apply (c : Dev nD) (t : Fin cfg1.N) (k : Fin 64) :
    bblk V c t (ix2 0 k) = V c main_v48 (ix2 0 k) := by
  obtain ⟨e0, e1, e2, e3, e4, e5, e6, e7, e8⟩ := idx_facts t
  show V c main_v48 (((cfg1.win 1).blk t).view.emb (ix2 0 k)) = _
  refine congrArg (V c main_v48) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- The weight block at every t is the weight array. -/
theorem wblk_apply (c : Dev nD) (t : Fin cfg1.N) (k : Fin 64) (q : Fin 64) :
    wblk V c t (ix2 k q) = V c main_arg5 (ix2 k q) := by
  obtain ⟨e0, e1, e2, e3, e4, e5, e6, e7, e8⟩ := idx_facts t
  show V c main_arg5 (((cfg1.win 2).blk t).view.emb (ix2 k q)) = _
  refine congrArg (V c main_arg5) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- What grid point t writes back is block t of the product of the rectified, biased features with the weight. -/
theorem flushed_eq (c : Dev nD) (t : Fin cfg1.N) :
    (dat1 V c).flushed 3 t = ((cfg1.win 3).blk t).view.read (Elt Ideal) (lin (act (V c main_v47) (V c main_v48)) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7, e8⟩ := idx_facts t
  funext j
  obtain ⟨p, q, rfl⟩ : ∃ (p : Fin 10000) (q : Fin 64), j = ix2 p q := ⟨j 0, j 1, eq_ix2 j⟩
  have hp : t.val * 10000 + p.val < 100000 := by have := p.isLt; omega
  show k1_pay1 (xblk V c t) (bblk V c t) (wblk V c t) (ix2 p q)
    = lin (act (V c main_v47) (V c main_v48)) (V c main_arg5) (((cfg1.win 3).blk t).view.emb (ix2 p q))
  have hemb : ((cfg1.win 3).blk t).view.emb (ix2 p q) = ix2 (n0 := 100000) ⟨t.val * 10000 + p.val, hp⟩ q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  rw [hemb, lin_ix2, pay_apply]
  exact Finset.sum_congr rfl fun k _ => by
    rw [xblk_apply V c t p k hp, bblk_apply V c t k, wblk_apply V c t k q, act_ix2]

/-- An index of the output array is in block t iff its row is among rows 10000·t … 10000·t + 9999. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v49).slice (win1_3.rect t)).set ↔ _
  rw [View.set_slice_whole, Rect.mem_set_unit]
  exact Iff.rfl

/-- Every row is in one of the ten blocks: row r in block r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨e0, e1, e2, e3, e4, e5, e6, e7, e8⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region the output array is the product of the rectified, biased features with the weight, of the
    arrays the region found. -/
theorem final (c : Dev nD) : (dat1 V c).arrAt 3 cfg1.N = lin (act (V c main_v47) (V c main_v48)) (V c main_arg5) :=
  (dat1 V c).arrAt_eq_of_cover 3 (lin (act (V c main_v47) (V c main_v48)) (V c main_arg5)) (fun t _ => flushed_eq V c t) cover

end Cert.KernelIdeal.Layer2

end
-- ==== Proof.Layer3.lean ====
/- The third layer's product: what the fused bias, rectifier and product kernel leaves in its output array.

   At block t the kernel loads rows 10000·t … 10000·t + 9999 of the aggregated features, the bias row (1 × 64) and the
   whole 64 × 64 weight; it adds the bias row to every loaded row, takes the maximum with 0, and multiplies by the
   weight from a zero accumulator. Entry (r, c) of block t is the sum over k of
   max (a (10000·t + r, k) + b (0, k), 0) · w (k, c): block t of the product of the rectified, biased features with
   the weight. The ten blocks cover the output array. -/
import proofs.«145862_j54932631715890_1_alg».proof.Proof.Gen.KernelIdeal.Frame
import proofs.«145862_j54932631715890_1_alg».proof.Proof.Spec
import proofs.«145862_j54932631715890_1_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Layer3

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)
open scoped BigOperators

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the sum over k of the rectified, biased row entry k times the
    weight's (k, c). -/
theorem pay_apply (x0 : Vec Ideal S10000x64 .f32) (x1 : Vec Ideal S1x64 .f32) (x2 : Vec Ideal S64x64 .f32) (p : Fin 10000) (q : Fin 64) :
    k2_pay1 x0 x1 x2 (ix2 p q) = ∑ k : Fin 64, max (x0 (ix2 p k) + x1 (ix2 0 k)) 0 * x2 (ix2 k q) := by
  unfold k2_pay1
  refine (Cert.DotPlain.matmul_zero_rows_cols dot_S10000x64_S64x64_S10000x64_1_0_0_1_n_n rfl rfl rfl rfl rfl rfl none _ _ p q).trans ?_
  refine Finset.sum_congr rfl fun k _ => ?_
  show max (shapeCast S10000x64 x0 shapeCasts_S10000x64_S10000x64 (ix2 p k)
      + broadcastTo S10000x64 (shapeCast S1x64 x1 shapeCasts_S1x64_S1x64) broadcasts_S1x64_S10000x64 (ix2 p k)) (Ideal.ofBits .f32 0x00000000#32) * x2 (ix2 k q) = _
  rw [shapeCast_self, shapeCast_self, Ideal.ofBits_zero_f32,
    broadcastTo_apply x1 broadcasts_S1x64_S10000x64 (ix2 p k) (ix2 0 k) (fun a => by
      match a with
      | ⟨0, _⟩ => rfl
      | ⟨1, _⟩ => rfl)]

/-- Where the four windows sit at grid point t: the feature and output windows at block row t, the bias and weight
    windows at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- The feature block, the bias block and the weight block at grid point t, at their literal types. -/
abbrev xblk (c : Dev nD) (t : Fin cfg2.N) : Vec Ideal S10000x64 .f32 := iblk2 V c 0 t
abbrev bblk (c : Dev nD) (t : Fin cfg2.N) : Vec Ideal S1x64 .f32 := iblk2 V c 1 t
abbrev wblk (c : Dev nD) (t : Fin cfg2.N) : Vec Ideal S64x64 .f32 := iblk2 V c 2 t

/-- The feature block at t is rows 10000·t onwards of the feature array. -/
theorem xblk_apply (c : Dev nD) (t : Fin cfg2.N) (p : Fin 10000) (k : Fin 64) (h : t.val * 10000 + p.val < 100000) :
    xblk V c t (ix2 p k) = V c main_v62 (ix2 (n0 := 100000) ⟨t.val * 10000 + p.val, h⟩ k) := by
  obtain ⟨e0, e1, e2, e3, e4, e5, e6, e7, e8⟩ := idx_facts t
  show V c main_v62 (((cfg2.win 0).blk t).view.emb (ix2 p k)) = _
  refine congrArg (V c main_v62) (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- The bias block at every t is the bias row. -/
theorem bblk_apply (c : Dev nD) (t : Fin cfg2.N) (k : Fin 64) :
    bblk V c t (ix2 0 k) = V c main_v63 (ix2 0 k) := by
  obtain ⟨e0, e1, e2, e3, e4, e5, e6, e7, e8⟩ := idx_facts t
  show V c main_v63 (((cfg2.win 1).blk t).view.emb (ix2 0 k)) = _
  refine congrArg (V c main_v63) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The weight block at every t is the weight array. -/
theorem wblk_apply (c : Dev nD) (t : Fin cfg2.N) (k : Fin 64) (q : Fin 64) :
    wblk V c t (ix2 k q) = V c main_arg7 (ix2 k q) := by
  obtain ⟨e0, e1, e2, e3, e4, e5, e6, e7, e8⟩ := idx_facts t
  show V c main_arg7 (((cfg2.win 2).blk t).view.emb (ix2 k q)) = _
  refine congrArg (V c main_arg7) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- What grid point t writes back is block t of the product of the rectified, biased features with the weight. -/
theorem flushed_eq (c : Dev nD) (t : Fin cfg2.N) :
    (dat2 V c).flushed 3 t = ((cfg2.win 3).blk t).view.read (Elt Ideal) (lin (act (V c main_v62) (V c main_v63)) (V c main_arg7)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6, e7, e8⟩ := idx_facts t
  funext j
  obtain ⟨p, q, rfl⟩ : ∃ (p : Fin 10000) (q : Fin 64), j = ix2 p q := ⟨j 0, j 1, eq_ix2 j⟩
  have hp : t.val * 10000 + p.val < 100000 := by have := p.isLt; omega
  show k2_pay1 (xblk V c t) (bblk V c t) (wblk V c t) (ix2 p q)
    = lin (act (V c main_v62) (V c main_v63)) (V c main_arg7) (((cfg2.win 3).blk t).view.emb (ix2 p q))
  have hemb : ((cfg2.win 3).blk t).view.emb (ix2 p q) = ix2 (n0 := 100000) ⟨t.val * 10000 + p.val, hp⟩ q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  rw [hemb, lin_ix2, pay_apply]
  exact Finset.sum_congr rfl fun k _ => by
    rw [xblk_apply V c t p k hp, bblk_apply V c t k, wblk_apply V c t k q, act_ix2]

/-- An index of the output array is in block t iff its row is among rows 10000·t … 10000·t + 9999. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v64).slice (win2_3.rect t)).set ↔ _
  rw [View.set_slice_whole, Rect.mem_set_unit]
  exact Iff.rfl

/-- Every row is in one of the ten blocks: row r in block r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨e0, e1, e2, e3, e4, e5, e6, e7, e8⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the region the output array is the product of the rectified, biased features with the weight, of the
    arrays the region found. -/
theorem final (c : Dev nD) : (dat2 V c).arrAt 3 cfg2.N = lin (act (V c main_v62) (V c main_v63)) (V c main_arg7) :=
  (dat2 V c).arrAt_eq_of_cover 3 (lin (act (V c main_v62) (V c main_v63)) (V c main_arg7)) (fun t _ => flushed_eq V c t) cover

end Cert.KernelIdeal.Layer3

end
-- ==== Proof.Rectify.lean ====
/- The last step: what the bias and rectifier kernel leaves in the result array.

   At block t the kernel loads rows 10000·t … 10000·t + 9999 of the aggregated features and the bias row (1 × 64), adds
   the bias row to every loaded row and takes the maximum with 0. Entry (r, c) of block t is
   max (a (10000·t + r, c) + b (0, c), 0): block t of the rectified, biased features. The ten blocks cover the result. -/
import proofs.«145862_j54932631715890_1_alg».proof.Proof.Gen.KernelIdeal.Frame
import proofs.«145862_j54932631715890_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Rectify

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)
open scoped BigOperators

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the row's entry plus the bias entry of its column, then the maximum
    with 0. -/
theorem pay_apply (x0 : Vec Ideal S10000x64 .f32) (x1 : Vec Ideal S1x64 .f32) (p : Fin 10000) (q : Fin 64) :
    k3_pay1 x0 x1 (ix2 p q) = max (x0 (ix2 p q) + x1 (ix2 0 q)) 0 := by
  unfold k3_pay1
  show max (shapeCast S10000x64 x0 shapeCasts_S10000x64_S10000x64 (ix2 p q)
      + broadcastTo S10000x64 (shapeCast S1x64 x1 shapeCasts_S1x64_S1x64) broadcasts_S1x64_S10000x64 (ix2 p q)) (Ideal.ofBits .f32 0x00000000#32) = _
  rw [shapeCast_self, shapeCast_self, Ideal.ofBits_zero_f32,
    broadcastTo_apply x1 broadcasts_S1x64_S10000x64 (ix2 p q) (ix2 0 q) (fun a => by
      match a with
      | ⟨0, _⟩ => rfl
      | ⟨1, _⟩ => rfl)]

/-- Where the three windows sit at grid point t: the feature and result windows at block row t, the bias window at
    the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The feature block and the bias block at grid point t, at their literal types. -/
abbrev xblk (c : Dev nD) (t : Fin cfg3.N) : Vec Ideal S10000x64 .f32 := iblk3 V c 0 t
abbrev bblk (c : Dev nD) (t : Fin cfg3.N) : Vec Ideal S1x64 .f32 := iblk3 V c 1 t

/-- The feature block at t is rows 10000·t onwards of the feature array. -/
theorem xblk_apply (c : Dev nD) (t : Fin cfg3.N) (p : Fin 10000) (k : Fin 64) (h : t.val * 10000 + p.val < 100000) :
    xblk V c t (ix2 p k) = V c main_v77 (ix2 (n0 := 100000) ⟨t.val * 10000 + p.val, h⟩ k) := by
  obtain ⟨e0, e1, e2, e3, e4, e5, e6⟩ := idx_facts t
  show V c main_v77 (((cfg3.win 0).blk t).view.emb (ix2 p k)) = _
  refine congrArg (V c main_v77) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * k.val = k.val; omega

/-- The bias block at every t is the bias row. -/
theorem bblk_apply (c : Dev nD) (t : Fin cfg3.N) (k : Fin 64) :
    bblk V c t (ix2 0 k) = V c main_v78 (ix2 0 k) := by
  obtain ⟨e0, e1, e2, e3, e4, e5, e6⟩ := idx_facts t
  show V c main_v78 (((cfg3.win 1).blk t).view.emb (ix2 0 k)) = _
  refine congrArg (V c main_v78) (funext fun a => Fin.ext ?_)
  match a with
  | ⟨0, _⟩ => show win3_1.index t (0 : Fin 2) * 1 + 1 * 0 = 0; omega
  | ⟨1, _⟩ => show win3_1.index t (1 : Fin 2) * 64 + 1 * k.val = k.val; omega

/-- What grid point t writes back is block t of the rectified, biased features. -/
theorem flushed_eq (c : Dev nD) (t : Fin cfg3.N) :
    (dat3 V c).flushed 2 t = ((cfg3.win 2).blk t).view.read (Elt Ideal) (act (V c main_v77) (V c main_v78)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5, e6⟩ := idx_facts t
  funext j
  obtain ⟨p, q, rfl⟩ : ∃ (p : Fin 10000) (q : Fin 64), j = ix2 p q := ⟨j 0, j 1, eq_ix2 j⟩
  have hp : t.val * 10000 + p.val < 100000 := by have := p.isLt; omega
  show k3_pay1 (xblk V c t) (bblk V c t) (ix2 p q)
    = act (V c main_v77) (V c main_v78) (((cfg3.win 2).blk t).view.emb (ix2 p q))
  have hemb : ((cfg3.win 2).blk t).view.emb (ix2 p q) = ix2 (n0 := 100000) ⟨t.val * 10000 + p.val, hp⟩ q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb, act_ix2, pay_apply, xblk_apply V c t p q hp, bblk_apply V c t q]

/-- An index of the result array is in block t iff its row is among rows 10000·t … 10000·t + 9999. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v79).slice (win3_2.rect t)).set ↔ _
  rw [View.set_slice_whole, Rect.mem_set_unit]
  exact Iff.rfl

/-- Every row is in one of the ten blocks: row r in block r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨e0, e1, e2, e3, e4, e5, e6⟩ := idx_facts t
  have ht : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the result array is the rectified, biased features, of the arrays the region found. -/
theorem final (c : Dev nD) : (dat3 V c).arrAt 2 cfg3.N = act (V c main_v77) (V c main_v78) :=
  (dat3 V c).arrAt_eq_of_cover 2 (act (V c main_v77) (V c main_v78)) (fun t _ => flushed_eq V c t) cover

end Cert.KernelIdeal.Rectify

end
-- ==== Proof.KernelValue.lean ====
/- The kernel's result as three graph-convolution layers over the edge data its first host operations compute.

   Walking the run's boundaries in order: the first region leaves the product of the features with the first weight;
   the host stretch after it forms the neighbourhood sum of that product and lays the first bias out as a row; the
   second region leaves the product of the rectified, biased sum with the second weight; and so on, until the last
   region rectifies the third biased sum into the result array. Every argument array, and the edge sources,
   destinations and normalised weights, are read at each step with the contents they had at the first region's entry. -/
import proofs.«145862_j54932631715890_1_alg».proof.Proof.Gen.KernelIdeal.Frame
import proofs.«145862_j54932631715890_1_alg».proof.Proof.Spec
import proofs.«145862_j54932631715890_1_alg».proof.Proof.Neighbours
import proofs.«145862_j54932631715890_1_alg».proof.Proof.Kept
import proofs.«145862_j54932631715890_1_alg».proof.Proof.Layer1
import proofs.«145862_j54932631715890_1_alg».proof.Proof.Layer2
import proofs.«145862_j54932631715890_1_alg».proof.Proof.Layer3
import proofs.«145862_j54932631715890_1_alg».proof.Proof.Rectify
import Idealize.ShloMosaic.Lib.StableHlo.Run

set_option maxRecDepth 16384

noncomputable section

namespace Cert.KernelIdeal.Whole

open Cert.KernelIdeal Cert.KernelIdeal.Gen Cert.Gcn Cert.KernelIdeal.Neighbours
open Idealize.ShloMosaic Idealize.ShloMosaic.TcCoe Idealize.SL.Sem Idealize.ShloMosaic.StableHlo

variable (m : (ℓ : Loc nD τ sig) → Buf (Elt Ideal) ℓ) (ρ : Dev nD → PrngReg)

/-- The edge sources, the edge destinations and the edges' normalised weights, as the first region finds them. -/
abbrev src (c : Dev nD) : (⟨S1300000, .i32⟩ : BufTy).Contents (Elt Ideal) := W3 m ρ c (Proc.devRef .tc main_v5)
abbrev dst (c : Dev nD) : (⟨S1300000, .i32⟩ : BufTy).Contents (Elt Ideal) := W3 m ρ c (Proc.devRef .tc main_v6)
abbrev nrm (c : Dev nD) : (⟨S1300000, .f32⟩ : BufTy).Contents (Elt Ideal) := W3 m ρ c (Proc.devRef .tc main_v33)
/-- The neighbourhood sum over them. -/
abbrev nb (c : Dev nD) (h : (⟨S100000x64, .f32⟩ : BufTy).Contents (Elt Ideal)) : (⟨S100000x64, .f32⟩ : BufTy).Contents (Elt Ideal) :=
  agg (src m ρ c) (dst m ρ c) (nrm m ρ c) h
/-- A bias laid out as one row. -/
abbrev row (b : (⟨S64, .f32⟩ : BufTy).Contents (Elt Ideal)) : (⟨S1x64, .f32⟩ : BufTy).Contents (Elt Ideal) :=
  shapeCast _ b shapeCasts_S64_S1x64

/-! ## What is kept -/

theorem src4 (c : Dev nD) : W4 m ρ c (Proc.devRef .tc main_v5) = src m ρ c := Kept.exit1 m ρ c main_v5 (by decide)
theorem dst4 (c : Dev nD) : W4 m ρ c (Proc.devRef .tc main_v6) = dst m ρ c := Kept.exit1 m ρ c main_v6 (by decide)
theorem nrm4 (c : Dev nD) : W4 m ρ c (Proc.devRef .tc main_v33) = nrm m ρ c := Kept.exit1 m ρ c main_v33 (by decide)
theorem src6 (c : Dev nD) : W6 m ρ c (Proc.devRef .tc main_v5) = src m ρ c :=
  (Kept.exit2 m ρ c main_v5 (by decide)).trans ((Kept.entry2 m ρ c main_v5 (by decide)).trans (src4 m ρ c))
theorem dst6 (c : Dev nD) : W6 m ρ c (Proc.devRef .tc main_v6) = dst m ρ c :=
  (Kept.exit2 m ρ c main_v6 (by decide)).trans ((Kept.entry2 m ρ c main_v6 (by decide)).trans (dst4 m ρ c))
theorem nrm6 (c : Dev nD) : W6 m ρ c (Proc.devRef .tc main_v33) = nrm m ρ c :=
  (Kept.exit2 m ρ c main_v33 (by decide)).trans ((Kept.entry2 m ρ c main_v33 (by decide)).trans (nrm4 m ρ c))
theorem src8 (c : Dev nD) : W8 m ρ c (Proc.devRef .tc main_v5) = src m ρ c :=
  (Kept.exit3 m ρ c main_v5 (by decide)).trans ((Kept.entry3 m ρ c main_v5 (by decide)).trans (src6 m ρ c))
theorem dst8 (c : Dev nD) : W8 m ρ c (Proc.devRef .tc main_v6) = dst m ρ c :=
  (Kept.exit3 m ρ c main_v6 (by decide)).trans ((Kept.entry3 m ρ c main_v6 (by decide)).trans (dst6 m ρ c))
theorem nrm8 (c : Dev nD) : W8 m ρ c (Proc.devRef .tc main_v33) = nrm m ρ c :=
  (Kept.exit3 m ρ c main_v33 (by decide)).trans ((Kept.entry3 m ρ c main_v33 (by decide)).trans (nrm6 m ρ c))

theorem x_at (c : Dev nD) : W3 m ρ c (Proc.devRef .tc main_arg0) = (m ((c : Thread nD τ).loc main_arg0)) := Kept.entry1 m ρ c main_arg0 (by decide)
theorem w1_at (c : Dev nD) : W3 m ρ c (Proc.devRef .tc main_arg3) = (m ((c : Thread nD τ).loc main_arg3)) := Kept.entry1 m ρ c main_arg3 (by decide)
theorem b1_at (c : Dev nD) : W4 m ρ c (Proc.devRef .tc main_arg4) = (m ((c : Thread nD τ).loc main_arg4)) :=
  (Kept.exit1 m ρ c main_arg4 (by decide)).trans (Kept.entry1 m ρ c main_arg4 (by decide))
theorem w2_at (c : Dev nD) : W5 m ρ c (Proc.devRef .tc main_arg5) = (m ((c : Thread nD τ).loc main_arg5)) :=
  (Kept.entry2 m ρ c main_arg5 (by decide)).trans ((Kept.exit1 m ρ c main_arg5 (by decide)).trans (Kept.entry1 m ρ c main_arg5 (by decide)))
theorem b2_at (c : Dev nD) : W6 m ρ c (Proc.devRef .tc main_arg6) = (m ((c : Thread nD τ).loc main_arg6)) :=
  (Kept.exit2 m ρ c main_arg6 (by decide)).trans ((Kept.entry2 m ρ c main_arg6 (by decide)).trans
    ((Kept.exit1 m ρ c main_arg6 (by decide)).trans (Kept.entry1 m ρ c main_arg6 (by decide))))
theorem w3_at (c : Dev nD) : W7 m ρ c (Proc.devRef .tc main_arg7) = (m ((c : Thread nD τ).loc main_arg7)) :=
  (Kept.entry3 m ρ c main_arg7 (by decide)).trans ((Kept.exit2 m ρ c main_arg7 (by decide)).trans ((Kept.entry2 m ρ c main_arg7 (by decide)).trans
    ((Kept.exit1 m ρ c main_arg7 (by decide)).trans (Kept.entry1 m ρ c main_arg7 (by decide)))))
theorem b3_at (c : Dev nD) : W8 m ρ c (Proc.devRef .tc main_arg8) = (m ((c : Thread nD τ).loc main_arg8)) :=
  (Kept.exit3 m ρ c main_arg8 (by decide)).trans ((Kept.entry3 m ρ c main_arg8 (by decide)).trans ((Kept.exit2 m ρ c main_arg8 (by decide)).trans
    ((Kept.entry2 m ρ c main_arg8 (by decide)).trans ((Kept.exit1 m ρ c main_arg8 (by decide)).trans (Kept.entry1 m ρ c main_arg8 (by decide))))))

/-! ## First layer -/

/-- After the first region: the product of the features with the first weight. -/
theorem prod1 (c : Dev nD) : W4 m ρ c (Proc.devRef .tc main_v34) = lin (m ((c : Thread nD τ).loc main_arg0)) (m ((c : Thread nD τ).loc main_arg3)) := by
  refine (W4_arr m ρ c 2).trans ?_
  rw [Layer1.final (V3 m ρ) c]
  show lin (W3 m ρ c (Proc.devRef .tc main_arg0)) (W3 m ρ c (Proc.devRef .tc main_arg3)) = _
  rw [x_at, w1_at]

/-- Before the second region: its neighbourhood sum … -/
theorem sum1 (c : Dev nD) : W5 m ρ c (Proc.devRef .tc main_v47) = nb m ρ c (lin (m ((c : Thread nD τ).loc main_arg0)) (m ((c : Thread nD τ).loc main_arg3))) := by
  have h : W5 m ρ c (Proc.devRef .tc main_v47)
      = agg (W4 m ρ c (Proc.devRef .tc main_v5)) (W4 m ρ c (Proc.devRef .tc main_v6)) (W4 m ρ c (Proc.devRef .tc main_v33)) (W4 m ρ c (Proc.devRef .tc main_v34)) := by
    show StableHlo.after hostOps1 (W4 m ρ c) (Proc.devRef .tc main_v47) = _
    generalize W4 m ρ c = Wv
    after_results_simp
    rfl
  rw [h, src4, dst4, nrm4, prod1]

/-- … and the first bias as a row. -/
theorem bias1 (c : Dev nD) : W5 m ρ c (Proc.devRef .tc main_v48) = row (m ((c : Thread nD τ).loc main_arg4)) := by
  have h : W5 m ρ c (Proc.devRef .tc main_v48) = row (W4 m ρ c (Proc.devRef .tc main_arg4)) := by
    show StableHlo.after hostOps1 (W4 m ρ c) (Proc.devRef .tc main_v48) = _
    generalize W4 m ρ c = Wv
    after_results_simp
    rfl
  rw [h, b1_at]

/-! ## Second layer -/

theorem prod2 (c : Dev nD) : W6 m ρ c (Proc.devRef .tc main_v49)
    = lin (act (nb m ρ c (lin (m ((c : Thread nD τ).loc main_arg0)) (m ((c : Thread nD τ).loc main_arg3)))) (row (m ((c : Thread nD τ).loc main_arg4)))) (m ((c : Thread nD τ).loc main_arg5)) := by
  refine (W6_arr m ρ c 3).trans ?_
  rw [Layer2.final (V5 m ρ) c]
  show lin (act (W5 m ρ c (Proc.devRef .tc main_v47)) (W5 m ρ c (Proc.devRef .tc main_v48))) (W5 m ρ c (Proc.devRef .tc main_arg5)) = _
  rw [sum1, bias1, w2_at]

theorem sum2 (c : Dev nD) : W7 m ρ c (Proc.devRef .tc main_v62)
    = nb m ρ c (lin (act (nb m ρ c (lin (m ((c : Thread nD τ).loc main_arg0)) (m ((c : Thread nD τ).loc main_arg3)))) (row (m ((c : Thread nD τ).loc main_arg4)))) (m ((c : Thread nD τ).loc main_arg5))) := by
  have h : W7 m ρ c (Proc.devRef .tc main_v62)
      = agg (W6 m ρ c (Proc.devRef .tc main_v5)) (W6 m ρ c (Proc.devRef .tc main_v6)) (W6 m ρ c (Proc.devRef .tc main_v33)) (W6 m ρ c (Proc.devRef .tc main_v49)) := by
    show StableHlo.after hostOps2 (W6 m ρ c) (Proc.devRef .tc main_v62) = _
    generalize W6 m ρ c = Wv
    after_results_simp
    rfl
  rw [h, src6, dst6, nrm6, prod2]

theorem bias2 (c : Dev nD) : W7 m ρ c (Proc.devRef .tc main_v63) = row (m ((c : Thread nD τ).loc main_arg6)) := by
  have h : W7 m ρ c (Proc.devRef .tc main_v63) = row (W6 m ρ c (Proc.devRef .tc main_arg6)) := by
    show StableHlo.after hostOps2 (W6 m ρ c) (Proc.devRef .tc main_v63) = _
    generalize W6 m ρ c = Wv
    after_results_simp
    rfl
  rw [h, b2_at]

/-! ## Third layer -/

theorem prod3 (c : Dev nD) : W8 m ρ c (Proc.devRef .tc main_v64)
    = lin (act (nb m ρ c (lin (act (nb m ρ c (lin (m ((c : Thread nD τ).loc main_arg0)) (m ((c : Thread nD τ).loc main_arg3)))) (row (m ((c : Thread nD τ).loc main_arg4)))) (m ((c : Thread nD τ).loc main_arg5)))) (row (m ((c : Thread nD τ).loc main_arg6)))) (m ((c : Thread nD τ).loc main_arg7)) := by
  refine (W8_arr m ρ c 3).trans ?_
  rw [Layer3.final (V7 m ρ) c]
  show lin (act (W7 m ρ c (Proc.devRef .tc main_v62)) (W7 m ρ c (Proc.devRef .tc main_v63))) (W7 m ρ c (Proc.devRef .tc main_arg7)) = _
  rw [sum2, bias2, w3_at]

theorem sum3 (c : Dev nD) : W9 m ρ c (Proc.devRef .tc main_v77)
    = nb m ρ c (lin (act (nb m ρ c (lin (act (nb m ρ c (lin (m ((c : Thread nD τ).loc main_arg0)) (m ((c : Thread nD τ).loc main_arg3)))) (row (m ((c : Thread nD τ).loc main_arg4)))) (m ((c : Thread nD τ).loc main_arg5)))) (row (m ((c : Thread nD τ).loc main_arg6)))) (m ((c : Thread nD τ).loc main_arg7))) := by
  have h : W9 m ρ c (Proc.devRef .tc main_v77)
      = agg (W8 m ρ c (Proc.devRef .tc main_v5)) (W8 m ρ c (Proc.devRef .tc main_v6)) (W8 m ρ c (Proc.devRef .tc main_v33)) (W8 m ρ c (Proc.devRef .tc main_v64)) := by
    show StableHlo.after hostOps3 (W8 m ρ c) (Proc.devRef .tc main_v77) = _
    generalize W8 m ρ c = Wv
    after_results_simp
    rfl
  rw [h, src8, dst8, nrm8, prod3]

theorem bias3 (c : Dev nD) : W9 m ρ c (Proc.devRef .tc main_v78) = row (m ((c : Thread nD τ).loc main_arg8)) := by
  have h : W9 m ρ c (Proc.devRef .tc main_v78) = row (W8 m ρ c (Proc.devRef .tc main_arg8)) := by
    show StableHlo.after hostOps3 (W8 m ρ c) (Proc.devRef .tc main_v78) = _
    generalize W8 m ρ c = Wv
    after_results_simp
    rfl
  rw [h, b3_at]

/-- The result array after the run: three layers. -/
theorem result (c : Dev nD) : W10 m ρ c (Proc.devRef .tc main_v79)
    = act (nb m ρ c (lin (act (nb m ρ c (lin (act (nb m ρ c (lin (m ((c : Thread nD τ).loc main_arg0)) (m ((c : Thread nD τ).loc main_arg3)))) (row (m ((c : Thread nD τ).loc main_arg4)))) (m ((c : Thread nD τ).loc main_arg5)))) (row (m ((c : Thread nD τ).loc main_arg6)))) (m ((c : Thread nD τ).loc main_arg7)))) (row (m ((c : Thread nD τ).loc main_arg8))) := by
  refine (W10_arr m ρ c 2).trans ?_
  rw [Rectify.final (V9 m ρ) c]
  show act (W9 m ρ c (Proc.devRef .tc main_v77)) (W9 m ρ c (Proc.devRef .tc main_v78)) = _
  rw [sum3, bias3]

end Cert.KernelIdeal.Whole

end
-- ==== Proof.RefValue.lean ====
/- The reference's result as three graph-convolution layers, each a product, a neighbourhood sum, a bias and a rectifier.

   The reference computes, three times over, h ↦ max (sum over neighbours of (h · W) scaled by the edge weights + b, 0).
   Read one operation at a time, its product on the host is the entry-by-entry sum `lin`, its broadcast bias and
   maximum with zero are `act` at the bias laid out as a row, and the gather, scaling and scatter-add between them are
   the neighbourhood sum over the edge sources, destinations and normalised weights the first operations compute. -/
import proofs.«145862_j54932631715890_1_alg».proof.Proof.Gen.ReferenceIdeal.Read
import proofs.«145862_j54932631715890_1_alg».proof.Proof.Spec
import proofs.«145862_j54932631715890_1_alg».proof.Proof.LibDotPlain
import proofs.«145862_j54932631715890_1_alg».proof.Proof.Neighbours
import Idealize.ShloMosaic.Lib.Pipeline.Value
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read Cert.Gcn
open Idealize.ShloMosaic Idealize.ShloMosaic.ValueIdx
open scoped BigOperators

/-- The host's product of the features with a weight is the entry-by-entry sum. -/
theorem dot_eq_lin (h : FVec Ideal S100000x64 .f32) (w : FVec Ideal S64x64 .f32) :
    Host.dotGeneral (F := Ideal) dot_S100000x64_S64x64_S100000x64_1_0_0_1_n_n none h w = lin h w := by
  funext i
  obtain ⟨r, c, rfl⟩ : ∃ (r : Fin 100000) (c : Fin 64), i = ix2 r c := ⟨i 0, i 1, eq_ix2 i⟩
  rw [lin_ix2]
  simp only [Host.dotGeneral]
  exact Cert.DotPlain.dotGeneral_rows_cols dot_S100000x64_S64x64_S100000x64_1_0_0_1_n_n rfl rfl rfl rfl rfl rfl none _ h w r c

/-- The bias laid out as one row. -/
abbrev row (b : FVec Ideal S64 .f32) : FVec Ideal S1x64 .f32 :=
  broadcastInDim S1x64 ![1] bcast_S64_S1x64_1 b

/-- The bias row broadcast down the rows and added, then the maximum with the zero array: `act` at the bias row. -/
theorem relu_bias (a : FVec Ideal S100000x64 .f32) (b : FVec Ideal S64 .f32) :
    maximumf (addf a (broadcastInDim S100000x64 ![0, 1] bcast_S1x64_S100000x64_0_1 (row b)))
      (broadcastInDim S100000x64 ![] bcast_S_S100000x64 (constant (F := Ideal) S_ .f32 0x00000000#32))
    = act a (row b) := by
  funext i
  obtain ⟨r, c, rfl⟩ : ∃ (r : Fin 100000) (c : Fin 64), i = ix2 r c := ⟨i 0, i 1, eq_ix2 i⟩
  rw [act_ix2]
  show max (a (ix2 r c) + broadcastInDim S100000x64 ![0, 1] bcast_S1x64_S100000x64_0_1 (row b) (ix2 r c))
      (broadcastInDim S100000x64 ![] bcast_S_S100000x64 (constant (F := Ideal) S_ .f32 0x00000000#32) (ix2 r c)) = _
  rw [broadcastInDim_apply _ bcast_S1x64_S100000x64_0_1 (row b) (ix2 r c) (ix2 0 c) (fun a => match a with
      | ⟨0, _⟩ => by show 0 = if (1 : Nat) = 1 then 0 else r.val; rw [if_pos rfl]
      | ⟨1, _⟩ => by show c.val = if (64 : Nat) = 1 then 0 else c.val; rw [if_neg (by decide)]),
    broadcastInDim_apply _ bcast_S_S100000x64 (constant (F := Ideal) S_ .f32 0x00000000#32) (ix2 r c) ix0 (fun a => a.elim0)]
  show max _ (Ideal.ofBits .f32 0x00000000#32) = _
  rw [Ideal.ofBits_zero_f32]

variable (x0 : (⟨S100000x64, .f32⟩ : BufTy).Contents (Elt Ideal)) (x1 : (⟨S2x1200000, .i32⟩ : BufTy).Contents (Elt Ideal)) (x2 : (⟨S1200000, .f32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))

/-- The neighbourhood sum over the reference's own edge sources, destinations and normalised weights. -/
abbrev nb (h : FVec Ideal S100000x64 .f32) : FVec Ideal S100000x64 .f32 :=
  Cert.KernelIdeal.Neighbours.agg (F := Ideal) (val_main_v5 x1) (val_main_v6 x1) (val_main_v33 x1 x2) h

/-- First layer, before its bias: the neighbourhood sum of the product. -/
theorem sum1 : val_main_v47 (F := Ideal) x0 x1 x2 x3 = nb x1 x2 (lin x0 x3) := by
  have h34 : val_main_v34 (F := Ideal) x0 x3 = lin x0 x3 := by unfold val_main_v34; exact dot_eq_lin x0 x3
  unfold val_main_v47 val_main_v44 val_main_v41
  rw [h34]
  rfl

/-- First layer. -/
theorem layer1 : val_main_v51 (F := Ideal) x0 x1 x2 x3 x4 = act (nb x1 x2 (lin x0 x3)) (row x4) := by
  unfold val_main_v51 val_main_v50 val_main_v49 val_main_v48 val_main_call1_v0 val_main_call1_cst
  rw [sum1]
  exact relu_bias _ x4

/-- Second layer, before its bias. -/
theorem sum2 : val_main_v65 (F := Ideal) x0 x1 x2 x3 x4 x5 = nb x1 x2 (lin (act (nb x1 x2 (lin x0 x3)) (row x4)) x5) := by
  have h52 : val_main_v52 (F := Ideal) x0 x1 x2 x3 x4 x5 = lin (val_main_v51 (F := Ideal) x0 x1 x2 x3 x4) x5 := by
    unfold val_main_v52; exact dot_eq_lin _ x5
  unfold val_main_v65 val_main_v62 val_main_v59
  rw [h52, layer1]
  rfl

/-- Second layer. -/
theorem layer2 : val_main_v69 (F := Ideal) x0 x1 x2 x3 x4 x5 x6
    = act (nb x1 x2 (lin (act (nb x1 x2 (lin x0 x3)) (row x4)) x5)) (row x6) := by
  unfold val_main_v69 val_main_v68 val_main_v67 val_main_v66 val_main_call2_v0 val_main_call2_cst
  rw [sum2]
  exact relu_bias _ x6

/-- Third layer, before its bias. -/
theorem sum3 : val_main_v83 (F := Ideal) x0 x1 x2 x3 x4 x5 x6 x7
    = nb x1 x2 (lin (act (nb x1 x2 (lin (act (nb x1 x2 (lin x0 x3)) (row x4)) x5)) (row x6)) x7) := by
  have h70 : val_main_v70 (F := Ideal) x0 x1 x2 x3 x4 x5 x6 x7 = lin (val_main_v69 (F := Ideal) x0 x1 x2 x3 x4 x5 x6) x7 := by
    unfold val_main_v70; exact dot_eq_lin _ x7
  unfold val_main_v83 val_main_v80 val_main_v77
  rw [h70, layer2]
  rfl

/-- The reference's result: three layers. -/
theorem result : val_main_v87 (F := Ideal) x0 x1 x2 x3 x4 x5 x6 x7 x8
    = act (nb x1 x2 (lin (act (nb x1 x2 (lin (act (nb x1 x2 (lin x0 x3)) (row x4)) x5)) (row x6)) x7)) (row x8) := by
  unfold val_main_v87 val_main_v86 val_main_v85 val_main_v84 val_main_call3_v0 val_main_call3_cst
  rw [sum3]
  exact relu_bias _ x8

end Cert.ReferenceIdeal.Whole

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.Bridge.lean ====
/- The kernel's result and the reference's result are one function of the arguments.

   Both are three graph-convolution layers over the same weights and biases (`KernelValue`, `RefValue`). What is left
   is that the two programs feed their layers the same edge data and the same bias rows: the kernel's first host
   operations are, operation for operation, the reference's first operations, so the edge sources, destinations and
   normalised weights agree; and a 64-vector reshaped to one row is the same array as the vector broadcast to one row. -/
import proofs.«145862_j54932631715890_1_alg».proof.Proof.KernelValue
import proofs.«145862_j54932631715890_1_alg».proof.Proof.RefValue
import proofs.«145862_j54932631715890_1_alg».proof.Proof.LibTypedRead
import Idealize.ShloMosaic.Lib.StableHlo.Run
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.StableHlo Idealize.ShloMosaic.ValueIdx
open Cert.Gcn Cert.KernelIdeal.Kept

variable (m : (ℓ : Loc Cert.KernelIdeal.nD Cert.KernelIdeal.τ Cert.KernelIdeal.sig) → Buf (Elt Ideal) ℓ) (ρ : Dev Cert.KernelIdeal.nD → PrngReg)

/-- The kernel's edge sources are the reference's, of the same edge list. -/
theorem src_eq (c : Dev Cert.KernelIdeal.nD) :
    Cert.KernelIdeal.Whole.src m ρ c = Cert.ReferenceIdeal.Read.val_main_v5 (F := Ideal) (m ((c : Thread Cert.KernelIdeal.nD Cert.KernelIdeal.τ).loc Cert.KernelIdeal.main_arg1)) := by
  open Cert.KernelIdeal Cert.KernelIdeal.Gen in
  show StableHlo.after hostOps0_2 (StableHlo.after hostOps0_1 (StableHlo.after hostOps0 (W0 m ρ c))) (Proc.devRef .tc main_v5) = _
  after_results_simp
  rfl

/-- The kernel's edge destinations are the reference's. -/
theorem dst_eq (c : Dev Cert.KernelIdeal.nD) :
    Cert.KernelIdeal.Whole.dst m ρ c = Cert.ReferenceIdeal.Read.val_main_v6 (F := Ideal) (m ((c : Thread Cert.KernelIdeal.nD Cert.KernelIdeal.τ).loc Cert.KernelIdeal.main_arg1)) := by
  open Cert.KernelIdeal Cert.KernelIdeal.Gen in
  show StableHlo.after hostOps0_2 (StableHlo.after hostOps0_1 (StableHlo.after hostOps0 (W0 m ρ c))) (Proc.devRef .tc main_v6) = _
  after_results_simp
  rfl

/-! ## The normalised edge weights, stretch by stretch

The first stretch computes the degrees' comparison and reciprocal square root; the second, a module-local select,
picks between them and zero; the third gathers that at the edges' two ends and multiplies by the edge weight. -/

section EdgeWeights

open Cert.KernelIdeal Cert.KernelIdeal.Gen Cert.ReferenceIdeal.Read

/-- After the first stretch: the edge sources, … -/
theorem src1 (c : Dev Cert.KernelIdeal.nD) :
    W1 m ρ c (Proc.devRef .tc Cert.KernelIdeal.main_v5) = val_main_v5 (F := Ideal) (m ((c : Thread Cert.KernelIdeal.nD Cert.KernelIdeal.τ).loc Cert.KernelIdeal.main_arg1)) := by
  show StableHlo.after hostOps0 (W0 m ρ c) (Proc.devRef .tc Cert.KernelIdeal.main_v5) = _
  after_results_simp
  rfl
/-- … the edge destinations, … -/
theorem dst1 (c : Dev Cert.KernelIdeal.nD) :
    W1 m ρ c (Proc.devRef .tc Cert.KernelIdeal.main_v6) = val_main_v6 (F := Ideal) (m ((c : Thread Cert.KernelIdeal.nD Cert.KernelIdeal.τ).loc Cert.KernelIdeal.main_arg1)) := by
  show StableHlo.after hostOps0 (W0 m ρ c) (Proc.devRef .tc Cert.KernelIdeal.main_v6) = _
  after_results_simp
  rfl
/-- … the edge weights with the self-loops' ones appended, … -/
theorem wts1 (c : Dev Cert.KernelIdeal.nD) :
    W1 m ρ c (Proc.devRef .tc Cert.KernelIdeal.main_v8) = val_main_v8 (F := Ideal) (m ((c : Thread Cert.KernelIdeal.nD Cert.KernelIdeal.τ).loc Cert.KernelIdeal.main_arg2)) := by
  show StableHlo.after hostOps0 (W0 m ρ c) (Proc.devRef .tc Cert.KernelIdeal.main_v8) = _
  after_results_simp
  rfl
/-- … whether each node's degree is positive, … -/
theorem pos1 (c : Dev Cert.KernelIdeal.nD) :
    W1 m ρ c (Proc.devRef .tc Cert.KernelIdeal.main_v13) = val_main_v13 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) := by
  show StableHlo.after hostOps0 (W0 m ρ c) (Proc.devRef .tc Cert.KernelIdeal.main_v13) = _
  after_results_simp
  rfl
/-- … the reciprocal square root of each degree (floored), … -/
theorem rsq1 (c : Dev Cert.KernelIdeal.nD) :
    W1 m ρ c (Proc.devRef .tc Cert.KernelIdeal.main_v16) = val_main_v16 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) := by
  show StableHlo.after hostOps0 (W0 m ρ c) (Proc.devRef .tc Cert.KernelIdeal.main_v16) = _
  after_results_simp
  rfl
/-- … and the zero the select falls back to. -/
theorem zero1 (c : Dev Cert.KernelIdeal.nD) :
    W1 m ρ c (Proc.devRef .tc Cert.KernelIdeal.main_cst_3) = val_main_cst_3 (F := Ideal) := by
  show StableHlo.after hostOps0 (W0 m ρ c) (Proc.devRef .tc Cert.KernelIdeal.main_cst_3) = _
  after_results_simp
  rfl

/-- After the second stretch: each node's factor, the reciprocal square root of its degree where that is positive and
    zero elsewhere. -/
theorem dinv2 (c : Dev Cert.KernelIdeal.nD) :
    W2 m ρ c (Proc.devRef .tc Cert.KernelIdeal.main_v17) = val_main_v17 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) := by
  have h : W2 m ρ c (Proc.devRef .tc Cert.KernelIdeal.main_v17)
      = select (W1 m ρ c (Proc.devRef .tc Cert.KernelIdeal.main_v13)) (W1 m ρ c (Proc.devRef .tc Cert.KernelIdeal.main_v16))
          (broadcastInDim Cert.KernelIdeal.S100000 ![] bcast_S_S100000 (id (W1 m ρ c (Proc.devRef .tc Cert.KernelIdeal.main_cst_3)))) := by
    show TRef.rd (.of Cert.KernelIdeal.main_v17 : StableHlo.TRef Cert.KernelIdeal.sig ⟨Cert.KernelIdeal.S100000, .f32⟩)
      (StableHlo.after hostOps0_1 (W1 m ρ c)) = _
    generalize W1 m ρ c = Wv
    simp only [hostOps0_1, after_cons, after_nil]
    rw [TRef.rd_ternary, TRef.rd_unary_ne _ _ _ _ _ (by decide), TRef.rd_unary_ne _ _ _ _ _ (by decide),
      TRef.rd_unary_ne _ _ _ _ _ (by decide), TRef.rd_unary_ne _ _ _ _ _ (by decide), TRef.rd_unary, TRef.rd_unary]
    rfl
  rw [h, pos1, rsq1, zero1]
  rfl

theorem src2 (c : Dev Cert.KernelIdeal.nD) :
    W2 m ρ c (Proc.devRef .tc Cert.KernelIdeal.main_v5) = val_main_v5 (F := Ideal) (m ((c : Thread Cert.KernelIdeal.nD Cert.KernelIdeal.τ).loc Cert.KernelIdeal.main_arg1)) :=
  (show W2 m ρ c _ = W1 m ρ c _ by host_keep).trans (src1 m ρ c)
theorem dst2 (c : Dev Cert.KernelIdeal.nD) :
    W2 m ρ c (Proc.devRef .tc Cert.KernelIdeal.main_v6) = val_main_v6 (F := Ideal) (m ((c : Thread Cert.KernelIdeal.nD Cert.KernelIdeal.τ).loc Cert.KernelIdeal.main_arg1)) :=
  (show W2 m ρ c _ = W1 m ρ c _ by host_keep).trans (dst1 m ρ c)
theorem wts2 (c : Dev Cert.KernelIdeal.nD) :
    W2 m ρ c (Proc.devRef .tc Cert.KernelIdeal.main_v8) = val_main_v8 (F := Ideal) (m ((c : Thread Cert.KernelIdeal.nD Cert.KernelIdeal.τ).loc Cert.KernelIdeal.main_arg2)) :=
  (show W2 m ρ c _ = W1 m ρ c _ by host_keep).trans (wts1 m ρ c)

end EdgeWeights

/-- An edge's normalised weight: its weight times the factors of its source and destination nodes (a negative node
    index wrapped by the number of nodes first). -/
def edgeNorm (dinv : FVec Ideal Cert.KernelIdeal.S100000 .f32) (s d : IVec Cert.KernelIdeal.S1300000 32)
    (w : FVec Ideal Cert.KernelIdeal.S1300000 .f32) : FVec Ideal Cert.KernelIdeal.S1300000 .f32 :=
  open Cert.KernelIdeal Cert.KernelIdeal.Gen in
  mulf (mulf (Host.gather gather_S100000_S1300000x1_S1300000_n_0_n_n_0_1_1 dinv
        (broadcastInDim S1300000x1 ![0] bcast_S1300000_S1300000x1_0
          (select (cmpi .slt s (broadcastInDim S1300000 ![] bcast_S_S1300000 (constantI S_ 32 0#32)))
            (addi s (broadcastInDim S1300000 ![] bcast_S_S1300000 (constantI S_ 32 100000#32))) s))) w)
    (Host.gather gather_S100000_S1300000x1_S1300000_n_0_n_n_0_1_1 dinv
      (broadcastInDim S1300000x1 ![0] bcast_S1300000_S1300000x1_0
        (select (cmpi .slt d (broadcastInDim S1300000 ![] bcast_S_S1300000 (constantI S_ 32 0#32)))
          (addi d (broadcastInDim S1300000 ![] bcast_S_S1300000 (constantI S_ 32 100000#32))) d)))

/-- The kernel's normalised edge weights are the reference's, of the same edge list and edge weights: each edge's
    weight times the factors of its two end nodes. -/
theorem nrm_eq (c : Dev Cert.KernelIdeal.nD) :
    Cert.KernelIdeal.Whole.nrm m ρ c
      = Cert.ReferenceIdeal.Read.val_main_v33 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) := by
  open Cert.KernelIdeal Cert.KernelIdeal.Gen Cert.ReferenceIdeal.Read in
  have h : W3 m ρ c (Proc.devRef .tc Cert.KernelIdeal.main_v33)
      = edgeNorm (W2 m ρ c (Proc.devRef .tc Cert.KernelIdeal.main_v17)) (W2 m ρ c (Proc.devRef .tc Cert.KernelIdeal.main_v5))
          (W2 m ρ c (Proc.devRef .tc Cert.KernelIdeal.main_v6)) (W2 m ρ c (Proc.devRef .tc Cert.KernelIdeal.main_v8)) := by
    show StableHlo.after hostOps0_2 (W2 m ρ c) (Proc.devRef .tc Cert.KernelIdeal.main_v33) = _
    generalize W2 m ρ c = Wv
    after_results_simp
    rfl
  show W3 m ρ c (Proc.devRef .tc Cert.KernelIdeal.main_v33) = _
  rw [h, dinv2, src2, dst2, wts2]
  rfl

/-- A 64-vector reshaped to one row and the same vector broadcast to one row are the same array. -/
theorem row_eq (b : (⟨Cert.KernelIdeal.S64, .f32⟩ : BufTy).Contents (Elt Ideal)) :
    Cert.KernelIdeal.Whole.row b = Cert.ReferenceIdeal.Whole.row b := by
  funext j
  obtain ⟨z, q, rfl⟩ : ∃ (z : Fin 1) (q : Fin 64), j = ix2 z q := ⟨j 0, j 1, eq_ix2 j⟩
  have hz : z.val = 0 := by have := z.isLt; omega
  show shapeCast Cert.KernelIdeal.S1x64 b _ (ix2 z q) = broadcastInDim Cert.ReferenceIdeal.S1x64 ![1] _ b (ix2 z q)
  rw [shapeCast_apply b _ (ix2 z q) (ix1 q) (by
      rw [Shape.rowMajor_val_one, Shape.rowMajor_val_two]
      show q.val = z.val * 64 + q.val
      omega)]
  exact (broadcastInDim_apply _ _ b (ix2 z q) (ix1 q) (fun a => match a with
    | ⟨0, _⟩ => by show q.val = if (64 : Nat) = 1 then 0 else q.val; rw [if_neg (by decide)])).symm

/-- The kernel's result array after the run is the reference's result term at the kernel's arguments. -/
theorem kernel_eq_reference (c : Dev Cert.KernelIdeal.nD) :
    Cert.KernelIdeal.Gen.W10 m ρ c (Proc.devRef .tc Cert.KernelIdeal.main_v79)
      = Cert.ReferenceIdeal.Read.val_main_v87 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  have hnb : ∀ h, Cert.KernelIdeal.Whole.nb m ρ c h = Cert.ReferenceIdeal.Whole.nb (m ((c : Thread Cert.KernelIdeal.nD Cert.KernelIdeal.τ).loc Cert.KernelIdeal.main_arg1)) (m ((c : Thread Cert.KernelIdeal.nD Cert.KernelIdeal.τ).loc Cert.KernelIdeal.main_arg2)) h := fun h => by
    show Cert.KernelIdeal.Neighbours.agg _ _ _ h = Cert.KernelIdeal.Neighbours.agg _ _ _ h
    rw [src_eq, dst_eq, nrm_eq]
  rw [Cert.KernelIdeal.Whole.result, Cert.ReferenceIdeal.Whole.result]
  simp only [hnb, row_eq]

end Cert.Bridge

end
-- ==== Proof.lean ====
/- Three graph-convolution layers as a blocked Pallas kernel per dense step, against the plain jnp reference.

   Both programs compute, three times over, h ↦ max (N (h · W) + b, 0): a product with a 64 × 64 weight, the sum N over
   each node's incoming edges (self-loops added) of the source rows scaled by the symmetric normalisation, a bias and a
   rectifier. The kernel's program runs the products, biases and rectifiers in four kernel regions, blocked ten times
   over the 100000 rows and fed bf16, and leaves the edge bookkeeping and the sums N to the same host operations the
   reference uses. On exact values a change of format is the identity and a blocked product is the whole product, so
   the two results are one function of the arguments (`Cert.Bridge.kernel_eq_reference`). No law here needs the inputs
   to be finite: nothing is reordered or distributed, the two sides apply the same operations to the same values.
   The frames of the two kernel programs are the generated ones; the reference's frame is its generated run. -/
import proofs.«145862_j54932631715890_1_alg».proof.Defs
import proofs.«145862_j54932631715890_1_alg».proof.Proof.Gen.Kernel
import proofs.«145862_j54932631715890_1_alg».proof.Proof.Gen.Kernel.Skeleton
import proofs.«145862_j54932631715890_1_alg».proof.Proof.Gen.Kernel.Launch
import proofs.«145862_j54932631715890_1_alg».proof.Proof.Gen.Kernel.Points
import proofs.«145862_j54932631715890_1_alg».proof.Proof.Gen.Kernel.Frame
import proofs.«145862_j54932631715890_1_alg».proof.Proof.Gen.KernelIdeal
import proofs.«145862_j54932631715890_1_alg».proof.Proof.Gen.KernelIdeal.Skeleton
import proofs.«145862_j54932631715890_1_alg».proof.Proof.Gen.KernelIdeal.Launch
import proofs.«145862_j54932631715890_1_alg».proof.Proof.Gen.KernelIdeal.Points
import proofs.«145862_j54932631715890_1_alg».proof.Proof.Gen.KernelIdeal.Frame
import proofs.«145862_j54932631715890_1_alg».proof.Proof.Gen.ReferenceIdeal
import proofs.«145862_j54932631715890_1_alg».proof.Proof.Gen.Pre_finite_inputs
import proofs.«145862_j54932631715890_1_alg».proof.Proof.Gen.ReferenceIdeal.Run
import proofs.«145862_j54932631715890_1_alg».proof.Proof.Gen.ReferenceIdeal.Read
import proofs.«145862_j54932631715890_1_alg».proof.Proof.KernelRun
import proofs.«145862_j54932631715890_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read at exact values. -/
theorem frame_kernel_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's run names its
    result array, the reference's run names its result term, and the two are one function of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v79), Cert.KernelIdeal.Gen.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v87_eq, h0, h1, h2, h3, h4, h5, h6, h7, h8]
  exact (Cert.Bridge.kernel_eq_reference m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
